-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S512x2048 : Shape := ⟨2, ![512, 2048]⟩
abbrev S2048 : Shape := ⟨1, ![2048]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S512x2048 : S_.BroadcastsInDim S512x2048 (![] : Fin 0 → Fin S512x2048.rank)
  reducesTo_S512x2048_S_d0_1 : S512x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S512x2048 .f32) (main_arg5 : FVec F S2048 .f32) (main_arg6 : FVec F S2048 .f32) (main_v13 : IVec S_ 1) (main_v16 : IVec S512x2048 1) : IVec S_ 1 :=
  let main_c_5 : IVec S_ 1 := constantI S_ 1 1#1
  let main_v17 : IVec S_ 1 := (fun x v => Host.reduce IntOp.andi x v reducesTo_S512x2048_S_d0_1 h_S_) main_v16 main_c_5
  let main_v18 : IVec S_ 1 := andi main_v13 main_v17
  let main_v19 : FVec F S512x2048 .f32 := Host.absf main_arg4
  let main_cst_6 : FVec F S_ .f32 := constant S_ .f32 0x7F800000#32
  let main_v20 : FVec F S512x2048 .f32 := broadcastInDim S512x2048 ![] bcast_S_S512x2048 main_cst_6
  let main_v21 : IVec S512x2048 1 := cmpf .olt main_v19 main_v20
  let main_c_7 : IVec S_ 1 := constantI S_ 1 1#1
  let main_v22 : IVec S_ 1 := (fun x v => Host.reduce IntOp.andi x v reducesTo_S512x2048_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  main_v33

def fn {F : FTy → Type} [FloatOps F] (main_arg0 : FVec F S16384x512 .f32) (main_arg1 : FVec F S16384x512 .f32) (main_arg2 : FVec F S16384x512 .f32) (main_arg3 : FVec F S512x2048 .f32) (main_arg4 : FVec F S512x2048 .f32) (main_arg5 : FVec F S2048 .f32) (main_arg6 : FVec F S2048 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S16384x512 .f32 := Host.absf main_arg2
  let main_cst_2 : FVec F S_ .f32 := constant S_ .f32 0x7F800000#32
  let main_v10 : FVec F S16384x512 .f32 := broadcastInDim S16384x512 ![] bcast_S_S16384x512 main_cst_2
  let main_v11 : IVec S16384x512 1 := cmpf .olt main_v9 main_v10
  let main_c_3 : IVec S_ 1 := constantI S_ 1 1#1
  let main_v12 : IVec S_ 1 := (fun x v => Host.reduce IntOp.andi x v reducesTo_S16384x512_S_d0_1 h_S_) main_v11 main_c_3
  let main_v13 : IVec S_ 1 := andi main_v8 main_v12
  let main_v14 : FVec F S512x2048 .f32 := Host.absf main_arg3
  let main_cst_4 : FVec F S_ .f32 := constant S_ .f32 0x7F800000#32
  let main_v15 : FVec F S512x2048 .f32 := broadcastInDim S512x2048 ![] bcast_S_S512x2048 main_cst_4
  let main_v16 : IVec S512x2048 1 := cmpf .olt main_v14 main_v15
  fn_part1 (F := F) main_arg4 main_arg5 main_arg6 main_v13 main_v16
-- ==== Kernel.lean ====
abbrev S16384x512 : Shape := ⟨2, ![16384, 512]⟩
abbrev S512x2048 : Shape := ⟨2, ![512, 2048]⟩
abbrev S2048 : Shape := ⟨1, ![2048]⟩
abbrev S512x512 : Shape := ⟨2, ![512, 512]⟩
abbrev S1x2048 : Shape := ⟨2, ![1, 2048]⟩

abbrev nBuf : Space → Nat
  | .hbm => 9
  | .vmem => 14
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S512x2048, .f32⟩
  | .hbm, ⟨4, _⟩ => ⟨S512x2048, .f32⟩
  | .hbm, ⟨5, _⟩ => ⟨S2048, .f32⟩
  | .hbm, ⟨6, _⟩ => ⟨S2048, .f32⟩
  | .hbm, ⟨7, _⟩ => ⟨S16384x512, .f32⟩
  | .hbm, ⟨8, _⟩ => ⟨S16384x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x2048, .f32⟩
  | .local _ .vmem, ⟨7, _⟩ => ⟨S512x2048, .f32⟩
  | .local _ .vmem, ⟨8, _⟩ => ⟨S2048, .f32⟩
  | .local _ .vmem, ⟨9, _⟩ => ⟨S2048, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S512x2048 : S1x2048.Broadcasts S512x2048
  slices_S512x2048_o0_0_S512x512 : S512x2048.Slices ![0, 0] S512x512
  slices_S512x2048_o0_512_S512x512 : S512x2048.Slices ![0, 512] S512x512
  slices_S512x2048_o0_1024_S512x512 : S512x2048.Slices ![0, 1024] S512x512
  slices_S512x2048_o0_1536_S512x512 : S512x2048.Slices ![0, 1536] S512x512
  dot_S512x512_S512x2048_S512x2048_1_0_0_1_n_n_wf : DotDims.WF S512x512 S512x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S16384x512.size a
  hwx0_0 : ∀ i : grid0.Coords, EltTy.bits .f32 = 32 ∨ (Rect.block (s := S16384x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S16384x512.size a
  hwx0_1 : ∀ i : grid0.Coords, EltTy.bits .f32 = 32 ∨ (Rect.block (s := S16384x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S16384x512.size a
  hwx0_2 : ∀ i : grid0.Coords, EltTy.bits .f32 = 32 ∨ (Rect.block (s := S16384x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S512x2048.size a
  hwx0_3 : ∀ i : grid0.Coords, EltTy.bits .f32 = 32 ∨ (Rect.block (s := S512x2048) S512x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S512x2048.size a
  hwx0_4 : ∀ i : grid0.Coords, EltTy.bits .f32 = 32 ∨ (Rect.block (s := S512x2048) S512x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048.size a ≤ S2048.size a
  hwx0_5 : ∀ i : grid0.Coords, EltTy.bits .f32 = 32 ∨ (Rect.block (s := S2048) S2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2048.size a ≤ S2048.size a
  hwx0_6 : ∀ i : grid0.Coords, EltTy.bits .f32 = 32 ∨ (Rect.block (s := S2048) S2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S16384x512.size a
  hwx0_7 : ∀ i : grid0.Coords, EltTy.bits .f32 = 32 ∨ (Rect.block (s := S16384x512) S512x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S16384x512.size a
  hwx0_8 : ∀ i : grid0.Coords, EltTy.bits .f32 = 32 ∨ (Rect.block (s := S16384x512) S512x512.size (cc0_transform_8 i) (hinb0_8 i)).WholeWords (EltTy.packing .f32)

variable [Facts₀]

def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0_0) S512x512.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_1) S512x512.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S16384x512 : Shape := ⟨2, ![16384, 512]⟩
abbrev S512x2048 : Shape := ⟨2, ![512, 2048]⟩
abbrev S2048 : Shape := ⟨1, ![2048]⟩
abbrev S16384x2048 : Shape := ⟨2, ![16384, 2048]⟩
abbrev S1x2048 : Shape := ⟨2, ![1, 2048]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S512x2048, .f32⟩
  | .hbm, ⟨4, _⟩ => ⟨S512x2048, .f32⟩
  | .hbm, ⟨5, _⟩ => ⟨S2048, .f32⟩
  | .hbm, ⟨6, _⟩ => ⟨S2048, .f32⟩
  | .hbm, ⟨7, _⟩ => ⟨S16384x2048, .f32⟩
  | .hbm, ⟨8, _⟩ => ⟨S1x2048, .f32⟩
  | .hbm, ⟨9, _⟩ => ⟨S16384x2048, .f32⟩
  | .hbm, ⟨10, _⟩ => ⟨S16384x2048, .f32⟩
  | .hbm, ⟨11, _⟩ => ⟨S16384x2048, .f32⟩
  | .hbm, ⟨12, _⟩ => ⟨S16384x2048, .f32⟩
  | .hbm, ⟨13, _⟩ => ⟨S1x2048, .f32⟩
  | .hbm, ⟨14, _⟩ => ⟨S16384x2048, .f32⟩
  | .hbm, ⟨15, _⟩ => ⟨S16384x2048, .f32⟩
  | .hbm, ⟨16, _⟩ => ⟨S16384x512, .f32⟩
  | .hbm, ⟨17, _⟩ => ⟨S16384x512, .f32⟩
  | .hbm, ⟨18, _⟩ => ⟨S16384x512, .f32⟩
  | .hbm, ⟨19, _⟩ => ⟨S16384x512, .f32⟩
  | .hbm, ⟨20, _⟩ => ⟨S16384x512, .f32⟩
  | .hbm, ⟨21, _⟩ => ⟨S16384x512, .f32⟩
  | .hbm, ⟨22, _⟩ => ⟨S_, .f32⟩
  | .hbm, ⟨23, _⟩ => ⟨S16384x512, .f32⟩
  | .hbm, ⟨24, _⟩ => ⟨S16384x512, .f32⟩
  | .hbm, ⟨25, _⟩ => ⟨S_, .f32⟩
  | .hbm, ⟨26, _⟩ => ⟨S16384x512, .f32⟩
  | .hbm, ⟨27, _⟩ => ⟨S16384x512, .f32⟩
  | .hbm, ⟨28, _⟩ => ⟨S16384x512, .f32⟩
  | .hbm, ⟨29, _⟩ => ⟨S16384x512, .f32⟩
  | .hbm, ⟨30, _⟩ => ⟨S_, .f32⟩
  | .hbm, ⟨31, _⟩ => ⟨S16384x512, .f32⟩
  | .hbm, ⟨32, _⟩ => ⟨S16384x512, .f32⟩
  | .hbm, ⟨33, _⟩ => ⟨S_, .f32⟩
  | .hbm, ⟨34, _⟩ => ⟨S16384x512, .f32⟩
  | .hbm, ⟨35, _⟩ => ⟨S16384x512, .f32⟩
  | .hbm, ⟨36, _⟩ => ⟨S16384x512, .f32⟩
  | .hbm, ⟨37, _⟩ => ⟨S16384x512, .f32⟩
  | .hbm, ⟨38, _⟩ => ⟨S16384x512, .f32⟩
  | .hbm, ⟨39, _⟩ => ⟨S_, .f32⟩
  | .hbm, ⟨40, _⟩ => ⟨S16384x512, .f32⟩
  | .hbm, ⟨41, _⟩ => ⟨S16384x512, .f32⟩
  | .hbm, ⟨42, _⟩ => ⟨S_, .f32⟩
  | .hbm, ⟨43, _⟩ => ⟨S16384x512, .f32⟩
  | .hbm, ⟨44, _⟩ => ⟨S16384x512, .f32⟩
  | .hbm, ⟨45, _⟩ => ⟨S16384x512, .f32⟩
  | .hbm, ⟨46, _⟩ => ⟨S16384x512, .f32⟩
  | .hbm, ⟨47, _⟩ => ⟨S16384x512, .f32⟩
  | .hbm, ⟨48, _⟩ => ⟨S16384x512, .f32⟩
  | .hbm, ⟨49, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  slices_S16384x2048_S16384x512_0_0 : S16384x2048.Slices ![0, 0] S16384x512
  slices_S16384x2048_S16384x512_0_512 : S16384x2048.Slices ![0, 512] S16384x512
  slices_S16384x2048_S16384x512_0_1024 : S16384x2048.Slices ![0, 1024] S16384x512
  slices_S16384x2048_S16384x512_0_1536 : S16384x2048.Slices ![0, 1536] S16384x512
  bcast_S_S16384x512 : S_.BroadcastsInDim S16384x512 (![] : Fin 0 → Fin S16384x512.rank)
  dot_S16384x512_S512x2048_S16384x2048_1_0_0_1_n_n_wf : DotDims.WF S16384x512 S512x2048 S16384x2048 [1] [0] [0] [1] [] []

variable [Facts₀]

def dot_S16384x512_S512x2048_S16384x2048_1_0_0_1_n_n : DotDims S16384x512 S512x2048 S16384x2048 where
  lhsContracting := [1]
  rhsContracting := [0]
  lhsNonContracting := [0]
  rhsNonContracting := [1]
  lhsBatch := []
  rhsBatch := []
  wf := dot_S16384x512_S512x2048_S16384x2048_1_0_0_1_n_n_wf

class Facts : Prop extends Facts₀ where

variable [Facts]
-- ==== Proof.LstmSpec.lean ====
/-
  The mathematics of one LSTM cell step on a batch of 16384 rows with 512 inputs and 512 hidden units, as functions of
  the seven argument arrays over the extended reals.

  For row r and gate column j (0 ≤ j < 2048) the pre-activation is
      gate(r, j) = Σ_k x(r,k)·Wx(k,j) + Σ_k h(r,k)·Wh(k,j) + bx(j) + bh(j),
  the four gates are the column ranges [0,512) (input), [512,1024) (forget), [1024,1536) (candidate) and [1536,2048)
  (output), and with σ(z) = 1 / (1 + e^(-z))
      c'(r,q) = σ(gate(r, 512+q))·c(r,q) + σ(gate(r, q))·tanh(gate(r, 1024+q)),
      h'(r,q) = σ(gate(r, 1536+q))·tanh(c'(r,q)).
  Addition on the extended reals is commutative and associative, so the order in which the four summands of a
  pre-activation are added does not matter (`gate_sum_comm`); nothing here needs the inputs to be finite.
-/
import Idealize.ShloMosaic.PureOps.Ideal.Laws
import Idealize.ShloMosaic.Lib.ValueIdx

noncomputable section

open scoped BigOperators

namespace Cert.Lstm

open Idealize.ShloMosaic Idealize.ShloMosaic.ValueIdx

/-- The batch-by-feature shape of x, h, c and of both results. -/
abbrev SB : Shape := ⟨2, ![16384, 512]⟩
/-- The shape of the two packed weight matrices. -/
abbrev SW : Shape := ⟨2, ![512, 2048]⟩
/-- The shape of the two packed bias vectors. -/
abbrev SV : Shape := ⟨1, ![2048]⟩

/-- The f32 word of 1.0 denotes the extended real 1. -/
theorem one_word : Ideal.ofBits .f32 0x3F800000#32 = 1 := IdealRules.sign_bit.ideal_onePat .f32

/-- The host's spelling of the logistic function, 1 / (1 + exp (-z)) with both ones the f32 word of 1.0, is σ. -/
theorem sigmoid_spelled (z : Ideal .f32) :
    FloatOps.hostDivf (FloatOps.ofBits (F := Ideal) .f32 0x3F800000#32)
        (FloatOps.addf (FloatOps.ofBits (F := Ideal) .f32 0x3F800000#32) (FloatOps.hostUnary .exp (FloatOps.hostNegf z)))
      = Ideal.logistic z := by
  show Ideal.div (Ideal.ofBits .f32 0x3F800000#32) (Ideal.ofBits .f32 0x3F800000#32 + Ideal.exp (-z)) = Ideal.logistic z
  rw [one_word]
  rfl

variable (x h c : FVec Ideal SB .f32) (Wx Wh : FVec Ideal SW .f32) (bx bh : FVec Ideal SV .f32)

/-- The pre-activation of gate column j on row r. -/
def gateAt (r : Fin 16384) (j : Fin 2048) : EReal :=
  (∑ k : Fin 512, x (ix2 r k) * Wx (ix2 k j)) + (∑ k : Fin 512, h (ix2 r k) * Wh (ix2 k j)) + bx (ix1 j) + bh (ix1 j)

/-- The same four summands added in the order input product, input bias, hidden product, hidden bias. -/
theorem gate_sum_comm (r : Fin 16384) (j : Fin 2048) :
    (∑ k : Fin 512, x (ix2 r k) * Wx (ix2 k j)) + bx (ix1 j) + (∑ k : Fin 512, h (ix2 r k) * Wh (ix2 k j)) + bh (ix1 j)
      = gateAt x h Wx Wh bx bh r j := by
  unfold gateAt
  rw [add_right_comm (∑ k : Fin 512, x (ix2 r k) * Wx (ix2 k j)) (bx (ix1 j))]

/-- Column q of the gate whose columns start at o. -/
def gcol (o : Nat) (ho : o + 512 ≤ 2048) (q : Fin 512) : Fin 2048 := ⟨o + q.val, by have := q.isLt; omega⟩

/-- The new cell state at (r, q). -/
def cellAt (r : Fin 16384) (q : Fin 512) : EReal :=
  Ideal.logistic (gateAt x h Wx Wh bx bh r (gcol 512 (by norm_num) q)) * c (ix2 r q)
    + Ideal.logistic (gateAt x h Wx Wh bx bh r (gcol 0 (by norm_num) q))
        * Ideal.tanh (gateAt x h Wx Wh bx bh r (gcol 1024 (by norm_num) q))

/-- The new hidden state at (r, q). -/
def hidAt (r : Fin 16384) (q : Fin 512) : EReal :=
  Ideal.logistic (gateAt x h Wx Wh bx bh r (gcol 1536 (by norm_num) q)) * Ideal.tanh (cellAt x h c Wx Wh bx bh r q)

/-- The new cell state as an array. -/
def cellNew : FVec Ideal SB .f32 := fun i => cellAt x h c Wx Wh bx bh (i 0) (i 1)

/-- The new hidden state as an array. -/
def hidNew : FVec Ideal SB .f32 := fun i => hidAt x h c Wx Wh bx bh (i 0) (i 1)

end Cert.Lstm

end
-- ==== Proof.RefIsSpec.lean ====
/-
  The reference program computes the LSTM step of the specification.

  Read one operation at a time, the reference's gate array at (r, j) is the input product plus the input bias plus the
  hidden product plus the hidden bias: the specification's pre-activation with its summands in another order. Each
  logistic gate is spelled 1 / (1 + exp (-z)), which is σ(z); the four column slices pick the gate columns starting
  at 0, 512, 1024 and 1536. So the two results are the specification's new hidden and new cell state.
-/
import proofs.«176881_j11115375362476_1_alg».proof.Proof.Gen.ReferenceIdeal.Read
import proofs.«176881_j11115375362476_1_alg».proof.Proof.LstmSpec

noncomputable section

open scoped BigOperators

namespace Cert.Lstm.Ref

open Cert.ReferenceIdeal Cert.ReferenceIdeal.Read Idealize.ShloMosaic Idealize.ShloMosaic.ValueIdx Cert.Lstm

variable (x0 x1 x2 : (⟨S16384x512, .f32⟩ : BufTy).Contents (Elt Ideal))
  (x3 x4 : (⟨S512x2048, .f32⟩ : BufTy).Contents (Elt Ideal)) (x5 x6 : (⟨S2048, .f32⟩ : BufTy).Contents (Elt Ideal))

/-- The reference's gate array at (r, j) is the specification's pre-activation. -/
theorem gates_ref (r : Fin 16384) (j : Fin 2048) :
    val_main_v8 (F := Ideal) x0 x1 x3 x4 x5 x6 (ix2 r j) = gateAt x0 x1 x3 x4 x5 x6 r j := by
  rw [val_main_v8_apply, val_main_v5_apply, val_main_v3_apply, val_main_v0_apply, val_main_v4_apply,
    val_main_v2_apply, val_main_v1_apply, val_main_v7_apply, val_main_v6_apply]
  have l0 : ∀ k : Fin 512, lidx_main_v0 (ix2 r j) k = ix2 r k := fun k =>
    funext fun a => by match a with | ⟨0, _⟩ => rfl | ⟨1, _⟩ => rfl
  have r0 : ∀ k : Fin 512, ridx_main_v0 (ix2 r j) k = ix2 k j := fun k =>
    funext fun a => by match a with | ⟨0, _⟩ => rfl | ⟨1, _⟩ => rfl
  have l4 : ∀ k : Fin 512, lidx_main_v4 (ix2 r j) k = ix2 r k := fun k =>
    funext fun a => by match a with | ⟨0, _⟩ => rfl | ⟨1, _⟩ => rfl
  have r4 : ∀ k : Fin 512, ridx_main_v4 (ix2 r j) k = ix2 k j := fun k =>
    funext fun a => by match a with | ⟨0, _⟩ => rfl | ⟨1, _⟩ => rfl
  have b5 : idx_main_v1 (idx_main_v2 (ix2 r j)) = ix1 j := funext fun a => by match a with | ⟨0, _⟩ => rfl
  have b6 : idx_main_v6 (idx_main_v7 (ix2 r j)) = ix1 j := funext fun a => by match a with | ⟨0, _⟩ => rfl
  simp only [l0, r0, l4, r4, b5, b6]
  exact gate_sum_comm x0 x1 x3 x4 x5 x6 r j

/-- The one the reference adds and divides into is the f32 word of 1.0, at every index. -/
theorem one15 (i : S16384x512.Idx) : val_main_v15 (F := Ideal) i = FloatOps.ofBits (F := Ideal) .f32 0x3F800000#32 :=
  (val_main_v15_apply i).trans (val_main_cst_apply _)
theorem one17 (i : S16384x512.Idx) : val_main_v17 (F := Ideal) i = FloatOps.ofBits (F := Ideal) .f32 0x3F800000#32 :=
  (val_main_v17_apply i).trans (val_main_cst_0_apply _)
theorem one21 (i : S16384x512.Idx) : val_main_v21 (F := Ideal) i = FloatOps.ofBits (F := Ideal) .f32 0x3F800000#32 :=
  (val_main_v21_apply i).trans (val_main_cst_1_apply _)
theorem one23 (i : S16384x512.Idx) : val_main_v23 (F := Ideal) i = FloatOps.ofBits (F := Ideal) .f32 0x3F800000#32 :=
  (val_main_v23_apply i).trans (val_main_cst_2_apply _)
theorem one28 (i : S16384x512.Idx) : val_main_v28 (F := Ideal) i = FloatOps.ofBits (F := Ideal) .f32 0x3F800000#32 :=
  (val_main_v28_apply i).trans (val_main_cst_3_apply _)
theorem one30 (i : S16384x512.Idx) : val_main_v30 (F := Ideal) i = FloatOps.ofBits (F := Ideal) .f32 0x3F800000#32 :=
  (val_main_v30_apply i).trans (val_main_cst_4_apply _)

/-- The four column slices of the gate array, at (r, q), are the pre-activations of the four gates. -/
theorem slice_in (r : Fin 16384) (q : Fin 512) :
    val_main_v9 (F := Ideal) x0 x1 x3 x4 x5 x6 (ix2 r q) = gateAt x0 x1 x3 x4 x5 x6 r (gcol 0 (by norm_num) q) :=
  (val_main_v9_apply x0 x1 x3 x4 x5 x6 (ix2 r q)).trans
    ((congrArg (val_main_v8 (F := Ideal) x0 x1 x3 x4 x5 x6)
      (funext fun a => by match a with
        | ⟨0, _⟩ => rfl
        | ⟨1, _⟩ => exact Fin.ext (by show q.val = 0 + q.val; omega))).trans
      (gates_ref x0 x1 x3 x4 x5 x6 r (gcol 0 (by norm_num) q)))
theorem slice_forget (r : Fin 16384) (q : Fin 512) :
    val_main_v10 (F := Ideal) x0 x1 x3 x4 x5 x6 (ix2 r q) = gateAt x0 x1 x3 x4 x5 x6 r (gcol 512 (by norm_num) q) :=
  (val_main_v10_apply x0 x1 x3 x4 x5 x6 (ix2 r q)).trans
    ((congrArg (val_main_v8 (F := Ideal) x0 x1 x3 x4 x5 x6)
      (funext fun a => by match a with
        | ⟨0, _⟩ => rfl
        | ⟨1, _⟩ => rfl)).trans
      (gates_ref x0 x1 x3 x4 x5 x6 r (gcol 512 (by norm_num) q)))
theorem slice_cand (r : Fin 16384) (q : Fin 512) :
    val_main_v11 (F := Ideal) x0 x1 x3 x4 x5 x6 (ix2 r q) = gateAt x0 x1 x3 x4 x5 x6 r (gcol 1024 (by norm_num) q) :=
  (val_main_v11_apply x0 x1 x3 x4 x5 x6 (ix2 r q)).trans
    ((congrArg (val_main_v8 (F := Ideal) x0 x1 x3 x4 x5 x6)
      (funext fun a => by match a with
        | ⟨0, _⟩ => rfl
        | ⟨1, _⟩ => rfl)).trans
      (gates_ref x0 x1 x3 x4 x5 x6 r (gcol 1024 (by norm_num) q)))
theorem slice_out (r : Fin 16384) (q : Fin 512) :
    val_main_v12 (F := Ideal) x0 x1 x3 x4 x5 x6 (ix2 r q) = gateAt x0 x1 x3 x4 x5 x6 r (gcol 1536 (by norm_num) q) :=
  (val_main_v12_apply x0 x1 x3 x4 x5 x6 (ix2 r q)).trans
    ((congrArg (val_main_v8 (F := Ideal) x0 x1 x3 x4 x5 x6)
      (funext fun a => by match a with
        | ⟨0, _⟩ => rfl
        | ⟨1, _⟩ => rfl)).trans
      (gates_ref x0 x1 x3 x4 x5 x6 r (gcol 1536 (by norm_num) q)))

/-- The reference's second result at (r, q) is the specification's new cell state. -/
theorem cell_ref (r : Fin 16384) (q : Fin 512) :
    val_main_v34 (F := Ideal) x0 x1 x2 x3 x4 x5 x6 (ix2 r q) = cellAt x0 x1 x2 x3 x4 x5 x6 r q := by
  rw [val_main_v34_apply, val_main_v32_apply, val_main_v33_apply, val_main_v24_apply, val_main_v18_apply,
    val_main_v25_apply, val_main_v22_apply, val_main_v16_apply, val_main_v20_apply, val_main_v14_apply,
    val_main_v19_apply, val_main_v13_apply, one23, one21, one17, one15, slice_forget, slice_in, slice_cand,
    sigmoid_spelled, sigmoid_spelled]
  rfl

/-- The reference's first result at (r, q) is the specification's new hidden state. -/
theorem hid_ref (r : Fin 16384) (q : Fin 512) :
    val_main_v36 (F := Ideal) x0 x1 x2 x3 x4 x5 x6 (ix2 r q) = hidAt x0 x1 x2 x3 x4 x5 x6 r q := by
  rw [val_main_v36_apply, val_main_v35_apply, cell_ref, val_main_v31_apply, val_main_v29_apply, val_main_v27_apply,
    val_main_v26_apply, one30, one28, slice_out, sigmoid_spelled]
  rfl

/-- The reference's results as arrays. -/
theorem cell_ref_eq : val_main_v34 (F := Ideal) x0 x1 x2 x3 x4 x5 x6 = cellNew x0 x1 x2 x3 x4 x5 x6 :=
  funext fun i => (congrArg _ (eq_ix2 i)).trans (cell_ref x0 x1 x2 x3 x4 x5 x6 (i 0) (i 1))
theorem hid_ref_eq : val_main_v36 (F := Ideal) x0 x1 x2 x3 x4 x5 x6 = hidNew x0 x1 x2 x3 x4 x5 x6 :=
  funext fun i => (congrArg _ (eq_ix2 i)).trans (hid_ref x0 x1 x2 x3 x4 x5 x6 (i 0) (i 1))

end Cert.Lstm.Ref

end
-- ==== Proof.LibMatmulPlain.lean ====
/-
  Two general facts about rank-2 blocks at the ideal values, stated for any extents.

  * A kernel's matrix product of an m×k block by a k×n block into the zero accumulator, read at entry (a, b), is the
    plain sum over the contracted coordinate c of A(a, c) · B(c, b), whatever contraction precision the operation
    carries: at the ideal values the product into zero and the host's `dot_general` are the same sum over the
    contraction index, and the library already reads the host's plain product as that sum.
  * A one-row block [1, n] broadcast down m rows, read at (a, b), is the row's entry at column b.
-/
import Idealize.ShloMosaic.PureOps.Ideal.Laws
import Idealize.ShloMosaic.Lib.ValueIdx
import Idealize.ShloMosaic.Lib.StackMember
import Idealize.ShloMosaic.Lib.Pipeline.Value

noncomputable section

open scoped BigOperators

namespace Cert.LibMatmulPlain

open Idealize.ShloMosaic Idealize.ShloMosaic.ValueIdx

/-- The product of an m×k block by a k×n block into the zero accumulator, at the ideal values, read at (a, b):
    Σ_c A(a, c) · B(c, b). The precision argument plays no part: the ideal product is exact. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec _ A B (ix2 a b)).symm.trans
      (StackMember.dotGeneral_plain_apply prec A B a b))

/-- A one-row block broadcast down the rows, read at (a, b), is the row at column b. -/
theorem rowBroadcast_apply {α : Type} {m n : Nat} (x : (⟨2, ![1, n]⟩ : Shape).Idx → α)
    (h : (⟨2, ![1, n]⟩ : Shape).Broadcasts ⟨2, ![m, n]⟩) (a : Fin m) (b : Fin n) :
    broadcastTo ⟨2, ![m, n]⟩ x h (ix2 a b) = x (ix2 0 b) := by
  refine broadcastTo_apply x h (ix2 a b) (ix2 0 b) fun ax => ?_
  match ax with
  | ⟨0, _⟩ => rfl
  | ⟨1, _⟩ =>
    show b.val = if n = 1 then 0 else b.val
    split
    · have := b.isLt; omega
    · rfl

end Cert.LibMatmulPlain

end
-- ==== Proof.KernBlock.lean ====
/-
  One grid point of the kernel computes one 512-row block of the LSTM step.

  At a grid point the body holds a 512×512 block of x, of h and of c, the whole of Wx and Wh (512×2048) and the whole
  of bx and bh. Its gate payload at (p, j) is the sum of the two products into a zero accumulator and the two biases
  broadcast down the rows, i.e. Σ_k X(p,k)·Wx(k,j) + Σ_k H(p,k)·Wh(k,j) + bx(j) + bh(j) (the roundings to bf16 are the
  identity at the ideal values): when the blocks of x and h are the rows b·512 … b·512+511 of the arrays this is the
  specification's pre-activation on row b·512 + p. The stored c' and h' blocks read the gate payload at the columns
  q, 512 + q, 1024 + q, 1536 + q, so they are the specification's new cell and hidden state on those rows.
-/
import proofs.«176881_j11115375362476_1_alg».proof.Proof.Gen.KernelIdeal.Value
import proofs.«176881_j11115375362476_1_alg».proof.Proof.LstmSpec
import proofs.«176881_j11115375362476_1_alg».proof.Proof.LibMatmulPlain
import Idealize.ShloMosaic.Lib.ValueLayout

noncomputable section

open scoped BigOperators

namespace Cert.Lstm.Kern

open Cert.KernelIdeal Cert.KernelIdeal.Gen Idealize.ShloMosaic Idealize.ShloMosaic.ValueIdx Cert.Lstm

/-- Row p of block b, as a row of the batch. -/
def brow (b : Nat) (hb : b < 32) (p : Fin 512) : Fin 16384 := ⟨b * 512 + p.val, by have := p.isLt; omega⟩

/-- The body's gate payload at (p, j): two products into zero and two biases broadcast down the rows. -/
theorem gate_payload (P0 P1 : Vec Ideal S512x512 .f32) (P2 P3 : Vec Ideal S512x2048 .f32) (P4 P5 : Vec Ideal S2048 .f32)
    (p : Fin 512) (j : Fin 2048) :
    k0_pay1 (F := Ideal) P0 P1 P2 P3 P4 P5 (ix2 p j)
      = (∑ k : Fin 512, P0 (ix2 p k) * P2 (ix2 k j)) + (∑ k : Fin 512, P1 (ix2 p k) * P3 (ix2 k j))
          + P4 (ix1 j) + P5 (ix1 j) := by
  have e1 := Cert.LibMatmulPlain.matmul_plain_zero_apply (φ₁ := .bf16) (φ₂ := .bf16) none
    (truncf .bf16 P0 Facts₀.bitsLt_bf16_f32) (truncf .bf16 P2 Facts₀.bitsLt_bf16_f32) p j
  have e2 := Cert.LibMatmulPlain.matmul_plain_zero_apply (φ₁ := .bf16) (φ₂ := .bf16) none
    (truncf .bf16 P1 Facts₀.bitsLt_bf16_f32) (truncf .bf16 P3 Facts₀.bitsLt_bf16_f32) p j
  have e3 : broadcastTo S512x2048 (shapeCast S1x2048 P4 Facts₀.shapeCasts_S2048_S1x2048)
      Facts₀.broadcasts_S1x2048_S512x2048 (ix2 p j) = P4 (ix1 j) :=
    (broadcastTo_1b_ab_apply _ _ p j).trans (shapeCast_a_1a_apply P4 _ 0 j)
  have e4 : broadcastTo S512x2048 (shapeCast S1x2048 P5 Facts₀.shapeCasts_S2048_S1x2048)
      Facts₀.broadcasts_S1x2048_S512x2048 (ix2 p j) = P5 (ix1 j) :=
    (broadcastTo_1b_ab_apply _ _ p j).trans (shapeCast_a_1a_apply P5 _ 0 j)
  exact congrArg₂ (· + ·) (congrArg₂ (· + ·) (congrArg₂ (· + ·) e1 e2) e3) e4

variable (X H C : FVec Ideal SB .f32) (Wx Wh : FVec Ideal SW .f32) (bx bh : FVec Ideal SV .f32)

/-- With the x and h blocks the rows of block b, the gate payload is the specification's pre-activation there. -/
theorem gate_block (P0 P1 : Vec Ideal S512x512 .f32) (b : Nat) (hb : b < 32)
    (h0 : ∀ p k : Fin 512, P0 (ix2 p k) = X (ix2 (brow b hb p) k))
    (h1 : ∀ p k : Fin 512, P1 (ix2 p k) = H (ix2 (brow b hb p) k))
    (p : Fin 512) (j : Fin 2048) :
    k0_pay1 (F := Ideal) P0 P1 Wx Wh bx bh (ix2 p j) = gateAt X H Wx Wh bx bh (brow b hb p) j := by
  rw [gate_payload]
  unfold gateAt
  simp only [h0, h1]

/-- The stored c' block at (p, q) is the specification's new cell state on row b·512 + p. -/
theorem cell_block (P0 P1 P6 : Vec Ideal S512x512 .f32) (b : Nat) (hb : b < 32)
    (h0 : ∀ p k : Fin 512, P0 (ix2 p k) = X (ix2 (brow b hb p) k))
    (h1 : ∀ p k : Fin 512, P1 (ix2 p k) = H (ix2 (brow b hb p) k))
    (h6 : ∀ p k : Fin 512, P6 (ix2 p k) = C (ix2 (brow b hb p) k))
    (p q : Fin 512) :
    Value.E8 (F := Ideal) P0 P1 Wx Wh bx bh P6 (ix2 p q) = cellAt X H C Wx Wh bx bh (brow b hb p) q := by
  have i0 : Value.ix8_0 (ix2 p q) = ix2 p (gcol 512 (by norm_num) q) :=
    funext fun a => by match a with | ⟨0, _⟩ => rfl | ⟨1, _⟩ => exact Fin.ext (Nat.add_comm _ _)
  have i1 : Value.ix8_1 (ix2 p q) = ix2 p q :=
    funext fun a => by match a with | ⟨0, _⟩ => rfl | ⟨1, _⟩ => rfl
  have i2 : Value.ix8_2 (ix2 p q) = ix2 p (gcol 0 (by norm_num) q) :=
    funext fun a => by match a with | ⟨0, _⟩ => rfl | ⟨1, _⟩ => exact Fin.ext (Nat.zero_add _).symm
  have i3 : Value.ix8_3 (ix2 p q) = ix2 p (gcol 1024 (by norm_num) q) :=
    funext fun a => by match a with | ⟨0, _⟩ => rfl | ⟨1, _⟩ => exact Fin.ext (Nat.add_comm _ _)
  show FloatOps.addf (FloatOps.mulf (FloatOps.logistic (k0_pay1 (F := Ideal) P0 P1 Wx Wh bx bh (Value.ix8_0 (ix2 p q)))) (P6 (Value.ix8_1 (ix2 p q))))
      (FloatOps.mulf (FloatOps.logistic (k0_pay1 (F := Ideal) P0 P1 Wx Wh bx bh (Value.ix8_2 (ix2 p q))))
        (FloatOps.tanh (k0_pay1 (F := Ideal) P0 P1 Wx Wh bx bh (Value.ix8_3 (ix2 p q))))) = _
  rw [i0, i1, i2, i3, gate_block X H Wx Wh bx bh P0 P1 b hb h0 h1, gate_block X H Wx Wh bx bh P0 P1 b hb h0 h1,
    gate_block X H Wx Wh bx bh P0 P1 b hb h0 h1, h6]
  rfl

/-- The stored h' block at (p, q) is the specification's new hidden state on row b·512 + p. -/
theorem hid_block (P0 P1 P6 : Vec Ideal S512x512 .f32) (b : Nat) (hb : b < 32)
    (h0 : ∀ p k : Fin 512, P0 (ix2 p k) = X (ix2 (brow b hb p) k))
    (h1 : ∀ p k : Fin 512, P1 (ix2 p k) = H (ix2 (brow b hb p) k))
    (h6 : ∀ p k : Fin 512, P6 (ix2 p k) = C (ix2 (brow b hb p) k))
    (p q : Fin 512) :
    Value.E7 (F := Ideal) P0 P1 Wx Wh bx bh P6 (ix2 p q) = hidAt X H C Wx Wh bx bh (brow b hb p) q := by
  have i0 : Value.ix7_0 (ix2 p q) = ix2 p (gcol 1536 (by norm_num) q) :=
    funext fun a => by match a with | ⟨0, _⟩ => rfl | ⟨1, _⟩ => exact Fin.ext (Nat.add_comm _ _)
  have i1 : Value.ix7_1 (ix2 p q) = ix2 p (gcol 512 (by norm_num) q) :=
    funext fun a => by match a with | ⟨0, _⟩ => rfl | ⟨1, _⟩ => exact Fin.ext (Nat.add_comm _ _)
  have i2 : Value.ix7_2 (ix2 p q) = ix2 p q :=
    funext fun a => by match a with | ⟨0, _⟩ => rfl | ⟨1, _⟩ => rfl
  have i3 : Value.ix7_3 (ix2 p q) = ix2 p (gcol 0 (by norm_num) q) :=
    funext fun a => by match a with | ⟨0, _⟩ => rfl | ⟨1, _⟩ => exact Fin.ext (Nat.zero_add _).symm
  have i4 : Value.ix7_4 (ix2 p q) = ix2 p (gcol 1024 (by norm_num) q) :=
    funext fun a => by match a with | ⟨0, _⟩ => rfl | ⟨1, _⟩ => exact Fin.ext (Nat.add_comm _ _)
  show FloatOps.mulf (FloatOps.logistic (k0_pay1 (F := Ideal) P0 P1 Wx Wh bx bh (Value.ix7_0 (ix2 p q))))
      (FloatOps.tanh (FloatOps.addf
        (FloatOps.mulf (FloatOps.logistic (k0_pay1 (F := Ideal) P0 P1 Wx Wh bx bh (Value.ix7_1 (ix2 p q)))) (P6 (Value.ix7_2 (ix2 p q))))
        (FloatOps.mulf (FloatOps.logistic (k0_pay1 (F := Ideal) P0 P1 Wx Wh bx bh (Value.ix7_3 (ix2 p q))))
          (FloatOps.tanh (k0_pay1 (F := Ideal) P0 P1 Wx Wh bx bh (Value.ix7_4 (ix2 p q))))))) = _
  rw [i0, i1, i2, i3, i4, gate_block X H Wx Wh bx bh P0 P1 b hb h0 h1, gate_block X H Wx Wh bx bh P0 P1 b hb h0 h1,
    gate_block X H Wx Wh bx bh P0 P1 b hb h0 h1, gate_block X H Wx Wh bx bh P0 P1 b hb h0 h1, h6]
  rfl

end Cert.Lstm.Kern

end
-- ==== Proof.KernArray.lean ====
/-
  From the blocks to the whole result arrays.

  Grid point t stages rows t·512 … t·512+511 of x, h and c (block column 0), the whole of Wx, Wh, bx, bh at every
  point, and writes rows t·512 … t·512+511 of the two results. So what point t writes back is block t of the
  specification's new hidden state (first result) and new cell state (second result), read through the window. The 32
  row blocks tile the 16384 rows (row r lies in block r / 512), hence after the run the two result arrays ARE the
  specification's arrays, and the seven arguments are unchanged.
-/
import proofs.«176881_j11115375362476_1_alg».proof.Proof.Gen.KernelIdeal.Value
import proofs.«176881_j11115375362476_1_alg».proof.Proof.KernBlock

set_option maxRecDepth 16384

noncomputable section

namespace Cert.Lstm.Kern

open Cert.KernelIdeal Cert.KernelIdeal.Gen Idealize.ShloMosaic Idealize.ShloMosaic.TcCoe Idealize.SL.Sem
open Idealize.ShloMosaic.ValueIdx Cert.Lstm
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl
theorem zero1 : (![0] : Fin 1 → Nat) = fun _ => 0 := funext fun a => by fin_cases a <;> rfl

/-- The grid has 32 points. -/
theorem npoints : cfg0.N = 32 := (by decide +kernel : grid0.N = 32)

/-- The block index of every window at every grid point: the batch windows are on row block t and column block 0,
    the weights and biases always on block 0. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0 ∧ win0_6.index t (0 : Fin 1) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

theorem point_lt (t : Fin cfg0.N) : t.val < 32 := by have := t.isLt; have := npoints; omega

/-! ## The staged blocks, read off the arrays -/

theorem xblk (c : Dev nD) (t : Fin cfg0.N) (p k : Fin 512) :
    iblk m c 0 t (ix2 p k) = V m c main_arg0 (ix2 (brow t.val (point_lt t) p) k) := by
  obtain ⟨e0, e1, -⟩ := block_index t
  show V m c main_arg0 (((cfg0.win 0).blk t).view.emb (ix2 p k)) = _
  refine congrArg (V m c main_arg0) (funext fun a => Fin.ext ?_)
  match a with
  | ⟨0, _⟩ => show win0_0.index t (0 : Fin 2) * 512 + 1 * p.val = t.val * 512 + p.val; omega
  | ⟨1, _⟩ => show win0_0.index t (1 : Fin 2) * 512 + 1 * k.val = k.val; omega

theorem hblk (c : Dev nD) (t : Fin cfg0.N) (p k : Fin 512) :
    iblk m c 1 t (ix2 p k) = V m c main_arg1 (ix2 (brow t.val (point_lt t) p) k) := by
  obtain ⟨-, -, e0, e1, -⟩ := block_index t
  show V m c main_arg1 (((cfg0.win 1).blk t).view.emb (ix2 p k)) = _
  refine congrArg (V m c main_arg1) (funext fun a => Fin.ext ?_)
  match a with
  | ⟨0, _⟩ => show win0_1.index t (0 : Fin 2) * 512 + 1 * p.val = t.val * 512 + p.val; omega
  | ⟨1, _⟩ => show win0_1.index t (1 : Fin 2) * 512 + 1 * k.val = k.val; omega

theorem cblk (c : Dev nD) (t : Fin cfg0.N) (p k : Fin 512) :
    iblk m c 2 t (ix2 p k) = V m c main_arg2 (ix2 (brow t.val (point_lt t) p) k) := by
  obtain ⟨-, -, -, -, e0, e1, -⟩ := block_index t
  show V m c main_arg2 (((cfg0.win 2).blk t).view.emb (ix2 p k)) = _
  refine congrArg (V m c main_arg2) (funext fun a => Fin.ext ?_)
  match a with
  | ⟨0, _⟩ => show win0_2.index t (0 : Fin 2) * 512 + 1 * p.val = t.val * 512 + p.val; omega
  | ⟨1, _⟩ => show win0_2.index t (1 : Fin 2) * 512 + 1 * k.val = k.val; omega

theorem wxblk (c : Dev nD) (t : Fin cfg0.N) : (iblk m c 3 t : Vec Ideal S512x2048 .f32) = V m c main_arg3 := by
  obtain ⟨-, -, -, -, -, -, e0, e1, -⟩ := block_index t
  funext y
  show V m c main_arg3 (((cfg0.win 3).blk t).view.emb y) = V m c main_arg3 y
  refine congrArg (V m c main_arg3) (funext fun a => Fin.ext ?_)
  match a with
  | ⟨0, _⟩ => show win0_3.index t (0 : Fin 2) * 512 + 1 * (y 0).val = (y 0).val; omega
  | ⟨1, _⟩ => show win0_3.index t (1 : Fin 2) * 2048 + 1 * (y 1).val = (y 1).val; omega

theorem whblk (c : Dev nD) (t : Fin cfg0.N) : (iblk m c 4 t : Vec Ideal S512x2048 .f32) = V m c main_arg4 := by
  obtain ⟨-, -, -, -, -, -, -, -, e0, e1, -⟩ := block_index t
  funext y
  show V m c main_arg4 (((cfg0.win 4).blk t).view.emb y) = V m c main_arg4 y
  refine congrArg (V m c main_arg4) (funext fun a => Fin.ext ?_)
  match a with
  | ⟨0, _⟩ => show win0_4.index t (0 : Fin 2) * 512 + 1 * (y 0).val = (y 0).val; omega
  | ⟨1, _⟩ => show win0_4.index t (1 : Fin 2) * 2048 + 1 * (y 1).val = (y 1).val; omega

theorem bxblk (c : Dev nD) (t : Fin cfg0.N) : (iblk m c 5 t : Vec Ideal S2048 .f32) = V m c main_arg5 := by
  obtain ⟨-, -, -, -, -, -, -, -, -, -, e0, -⟩ := block_index t
  funext y
  show V m c main_arg5 (((cfg0.win 5).blk t).view.emb y) = V m c main_arg5 y
  refine congrArg (V m c main_arg5) (funext fun a => Fin.ext ?_)
  match a with
  | ⟨0, _⟩ => show win0_5.index t (0 : Fin 1) * 2048 + 1 * (y 0).val = (y 0).val; omega

theorem bhblk (c : Dev nD) (t : Fin cfg0.N) : (iblk m c 6 t : Vec Ideal S2048 .f32) = V m c main_arg6 := by
  obtain ⟨-, -, -, -, -, -, -, -, -, -, -, e0, -⟩ := block_index t
  funext y
  show V m c main_arg6 (((cfg0.win 6).blk t).view.emb y) = V m c main_arg6 y
  refine congrArg (V m c main_arg6) (funext fun a => Fin.ext ?_)
  match a with
  | ⟨0, _⟩ => show win0_6.index t (0 : Fin 1) * 2048 + 1 * (y 0).val = (y 0).val; omega

/-! ## What the body leaves in the two output buffers, over blocks as variables -/

theorem hid_out (x0 x1 x2 : Vec Ideal S512x512 .f32) (x3 x4 : Vec Ideal S512x2048 .f32) (x5 x6 : Vec Ideal S2048 .f32)
    (p q : Fin 512) :
    out0_7 (F := Ideal) x0 x1 x2 x3 x4 x5 x6 (ix2 p q) = Value.E7 (F := Ideal) x0 x1 x3 x4 x5 x6 x2 (ix2 p q) := by
  unfold out0_7
  simp only [View.ld_unit_zero (S := S512x512) zero2, View.ld_unit_zero (S := S512x2048) zero2,
    View.ld_unit_zero (S := S2048) zero1]
  exact Value.canon7_eq x0 x1 x3 x4 x5 x6 x2 (ix2 p q)

theorem cell_out (x0 x1 x2 : Vec Ideal S512x512 .f32) (x3 x4 : Vec Ideal S512x2048 .f32) (x5 x6 : Vec Ideal S2048 .f32)
    (p q : Fin 512) :
    out0_8 (F := Ideal) x0 x1 x2 x3 x4 x5 x6 (ix2 p q) = Value.E8 (F := Ideal) x0 x1 x3 x4 x5 x6 x2 (ix2 p q) := by
  unfold out0_8
  simp only [View.ld_unit_zero (S := S512x512) zero2, View.ld_unit_zero (S := S512x2048) zero2,
    View.ld_unit_zero (S := S2048) zero1]
  exact Value.canon8_eq x0 x1 x3 x4 x5 x6 x2 (ix2 p q)

/-! ## What each point writes back -/

/-- The specification's new hidden state of the arrays as the region finds them. -/
abbrev hidArr (c : Dev nD) : FVec Ideal SB .f32 :=
  hidNew (V m c main_arg0) (V m c main_arg1) (V m c main_arg2) (V m c main_arg3) (V m c main_arg4) (V m c main_arg5)
    (V m c main_arg6)

/-- The specification's new cell state of the arrays as the region finds them. -/
abbrev cellArr (c : Dev nD) : FVec Ideal SB .f32 :=
  cellNew (V m c main_arg0) (V m c main_arg1) (V m c main_arg2) (V m c main_arg3) (V m c main_arg4) (V m c main_arg5)
    (V m c main_arg6)

/-- Point t writes back block t of the new hidden state. -/
theorem flushed_hid (c : Dev nD) (t : Fin cfg0.N) :
    (dats m 0 c).flushed 7 t = ((cfg0.win 7).blk t).view.read (Elt Ideal) (hidArr m c) := by
  obtain ⟨-, -, -, -, -, -, -, -, -, -, -, -, e0, e1, -⟩ := block_index t
  rw [Value.flushed7]
  funext y
  obtain ⟨p, q, rfl⟩ : ∃ (p q : Fin 512), y = ix2 p q := ⟨y 0, y 1, eq_ix2 y⟩
  have r0 : (((cfg0.win 7).blk t).view.emb (ix2 p q)) 0 = brow t.val (point_lt t) p :=
    Fin.ext (by show win0_7.index t (0 : Fin 2) * 512 + 1 * p.val = t.val * 512 + p.val; omega)
  have r1 : (((cfg0.win 7).blk t).view.emb (ix2 p q)) 1 = q :=
    Fin.ext (by show win0_7.index t (1 : Fin 2) * 512 + 1 * q.val = q.val; omega)
  show out0_7 (iblk m c 0 t) (iblk m c 1 t) (iblk m c 2 t) (iblk m c 3 t) (iblk m c 4 t) (iblk m c 5 t) (iblk m c 6 t) (ix2 p q)
    = hidAt (V m c main_arg0) (V m c main_arg1) (V m c main_arg2) (V m c main_arg3) (V m c main_arg4) (V m c main_arg5)
        (V m c main_arg6) ((((cfg0.win 7).blk t).view.emb (ix2 p q)) 0) ((((cfg0.win 7).blk t).view.emb (ix2 p q)) 1)
  rw [r0, r1]
  refine (hid_out (iblk m c 0 t) (iblk m c 1 t) (iblk m c 2 t) (iblk m c 3 t) (iblk m c 4 t) (iblk m c 5 t) (iblk m c 6 t) p q).trans ?_
  rw [wxblk m c t, whblk m c t, bxblk m c t, bhblk m c t]
  exact hid_block (V m c main_arg0) (V m c main_arg1) (V m c main_arg2) (V m c main_arg3) (V m c main_arg4)
    (V m c main_arg5) (V m c main_arg6) (iblk m c 0 t) (iblk m c 1 t) (iblk m c 2 t) t.val (point_lt t)
    (xblk m c t) (hblk m c t) (cblk m c t) p q

/-- Point t writes back block t of the new cell state. -/
theorem flushed_cell (c : Dev nD) (t : Fin cfg0.N) :
    (dats m 0 c).flushed 8 t = ((cfg0.win 8).blk t).view.read (Elt Ideal) (cellArr m c) := by
  obtain ⟨-, -, -, -, -, -, -, -, -, -, -, -, -, -, e0, e1⟩ := block_index t
  rw [Value.flushed8]
  funext y
  obtain ⟨p, q, rfl⟩ : ∃ (p q : Fin 512), y = ix2 p q := ⟨y 0, y 1, eq_ix2 y⟩
  have r0 : (((cfg0.win 8).blk t).view.emb (ix2 p q)) 0 = brow t.val (point_lt t) p :=
    Fin.ext (by show win0_8.index t (0 : Fin 2) * 512 + 1 * p.val = t.val * 512 + p.val; omega)
  have r1 : (((cfg0.win 8).blk t).view.emb (ix2 p q)) 1 = q :=
    Fin.ext (by show win0_8.index t (1 : Fin 2) * 512 + 1 * q.val = q.val; omega)
  show out0_8 (iblk m c 0 t) (iblk m c 1 t) (iblk m c 2 t) (iblk m c 3 t) (iblk m c 4 t) (iblk m c 5 t) (iblk m c 6 t) (ix2 p q)
    = cellAt (V m c main_arg0) (V m c main_arg1) (V m c main_arg2) (V m c main_arg3) (V m c main_arg4) (V m c main_arg5)
        (V m c main_arg6) ((((cfg0.win 8).blk t).view.emb (ix2 p q)) 0) ((((cfg0.win 8).blk t).view.emb (ix2 p q)) 1)
  rw [r0, r1]
  refine (cell_out (iblk m c 0 t) (iblk m c 1 t) (iblk m c 2 t) (iblk m c 3 t) (iblk m c 4 t) (iblk m c 5 t) (iblk m c 6 t) p q).trans ?_
  rw [wxblk m c t, whblk m c t, bxblk m c t, bhblk m c t]
  exact cell_block (V m c main_arg0) (V m c main_arg1) (V m c main_arg2) (V m c main_arg3) (V m c main_arg4)
    (V m c main_arg5) (V m c main_arg6) (iblk m c 0 t) (iblk m c 1 t) (iblk m c 2 t) t.val (point_lt t)
    (xblk m c t) (hblk m c t) (cblk m c t) p q

/-! ## The row blocks tile the arrays -/

theorem mem_blk_hid (t : Fin cfg0.N) (i : S16384x512.Idx) :
    i ∈ ((cfg0.win 7).blk t).view.set ↔ ∀ a : Fin 2, win0_7.index t a * S512x512.size a ≤ (i a).val
      ∧ (i a).val < win0_7.index t a * S512x512.size a + S512x512.size a := by
  show i ∈ ((View.whole main_v0_0).slice (win0_7.rect t)).set ↔ _
  rw [View.set_slice_whole, Rect.mem_set_unit]
  exact Iff.rfl

theorem mem_blk_cell (t : Fin cfg0.N) (i : S16384x512.Idx) :
    i ∈ ((cfg0.win 8).blk t).view.set ↔ ∀ a : Fin 2, win0_8.index t a * S512x512.size a ≤ (i a).val
      ∧ (i a).val < win0_8.index t a * S512x512.size a + S512x512.size a := by
  show i ∈ ((View.whole main_v0_1).slice (win0_8.rect t)).set ↔ _
  rw [View.set_slice_whole, Rect.mem_set_unit]
  exact Iff.rfl

/-- Row r lies in row block r / 512. -/
theorem cover_hid (i : S16384x512.Idx) :
    ∃ t : Fin cfg0.N, (cfg0.win 7).flush t = true ∧ i ∈ ((cfg0.win 7).blk t).view.set := by
  have hi0 : (i 0).val < 16384 := idx2_lt0 i
  have hi1 : (i 1).val < 512 := idx2_lt1 i
  obtain ⟨t, ht⟩ : ∃ t : Fin cfg0.N, t.val = (i 0).val / 512 :=
    ⟨⟨(i 0).val / 512, by have := npoints; omega⟩, rfl⟩
  obtain ⟨-, -, -, -, -, -, -, -, -, -, -, -, e0, e1, -⟩ := block_index t
  refine ⟨t, flush0_7 t, ?_⟩
  rw [mem_blk_hid]
  intro a
  match a with
  | ⟨0, _⟩ =>
    show win0_7.index t (0 : Fin 2) * 512 ≤ (i 0).val ∧ (i 0).val < win0_7.index t (0 : Fin 2) * 512 + 512
    omega
  | ⟨1, _⟩ =>
    show win0_7.index t (1 : Fin 2) * 512 ≤ (i 1).val ∧ (i 1).val < win0_7.index t (1 : Fin 2) * 512 + 512
    omega

theorem cover_cell (i : S16384x512.Idx) :
    ∃ t : Fin cfg0.N, (cfg0.win 8).flush t = true ∧ i ∈ ((cfg0.win 8).blk t).view.set := by
  have hi0 : (i 0).val < 16384 := idx2_lt0 i
  have hi1 : (i 1).val < 512 := idx2_lt1 i
  obtain ⟨t, ht⟩ : ∃ t : Fin cfg0.N, t.val = (i 0).val / 512 :=
    ⟨⟨(i 0).val / 512, by have := npoints; omega⟩, rfl⟩
  obtain ⟨-, -, -, -, -, -, -, -, -, -, -, -, -, -, e0, e1⟩ := block_index t
  refine ⟨t, flush0_8 t, ?_⟩
  rw [mem_blk_cell]
  intro a
  match a with
  | ⟨0, _⟩ =>
    show win0_8.index t (0 : Fin 2) * 512 ≤ (i 0).val ∧ (i 0).val < win0_8.index t (0 : Fin 2) * 512 + 512
    omega
  | ⟨1, _⟩ =>
    show win0_8.index t (1 : Fin 2) * 512 ≤ (i 1).val ∧ (i 1).val < win0_8.index t (1 : Fin 2) * 512 + 512
    omega

/-! ## The arrays after the run -/

theorem final_hid (c : Dev nD) : (dats m 0 c).arrAt 7 cfg0.N = hidArr m c :=
  (dats m 0 c).arrAt_eq_of_cover 7 (hidArr m c) (fun t _ => flushed_hid m c t) cover_hid

theorem final_cell (c : Dev nD) : (dats m 0 c).arrAt 8 cfg0.N = cellArr m c :=
  (dats m 0 c).arrAt_eq_of_cover 8 (cellArr m c) (fun t _ => flushed_cell m c t) cover_cell

/-- Every weakly fair execution of the kernel program terminates with the first result the specification's new hidden
    state and the second its new cell state of the argument arrays, the arguments unchanged. -/
theorem run : θ_run defs (onTc (τ := τ) (main (F := Ideal))) ⟨m, fun _ => 0, ρ⟩ fun r => ∀ c : Dev nD,
      r.2.mem ((c : Thread nD τ).loc main_v0_0) = hidArr m c
      ∧ r.2.mem ((c : Thread nD τ).loc main_v0_1) = cellArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final_hid m c), (h c).2.1.trans (final_cell m c), (h c).2.2⟩)
    (Value.run_blocks m ρ)

end Cert.Lstm.Kern

end
-- ==== Proof.lean ====
/-
  An LSTM cell step on a batch of 16384 rows (512 inputs, 512 hidden units), as one kernel over 32 row blocks, against
  the same step written with whole-array operations.

  Both programs compute, for row r and hidden unit q,
      c'(r,q) = σ(g(r, 512+q))·c(r,q) + σ(g(r, q))·tanh(g(r, 1024+q)),   h'(r,q) = σ(g(r, 1536+q))·tanh(c'(r,q)),
  where g(r, j) = Σ_k x(r,k)·Wx(k,j) + Σ_k h(r,k)·Wh(k,j) + bx(j) + bh(j) and σ(z) = 1 / (1 + e^(-z)).
  The kernel rounds its product operands to bf16 (the identity at the ideal values), adds the two products before the
  two biases where the reference adds product, bias, product, bias (addition of extended reals is commutative and
  associative), and applies the logistic function as one operation where the reference spells it out (the same
  function by definition). So the two pairs of results are equal entry by entry on all extended-real inputs; the
  precondition is not used. The three frames are the generated frame runs, and the idealization rewrote nothing.
-/
import proofs.«176881_j11115375362476_1_alg».proof.Defs
import proofs.«176881_j11115375362476_1_alg».proof.Proof.Gen.Kernel
import proofs.«176881_j11115375362476_1_alg».proof.Proof.Gen.Kernel.Skeleton
import proofs.«176881_j11115375362476_1_alg».proof.Proof.Gen.Kernel.Launch
import proofs.«176881_j11115375362476_1_alg».proof.Proof.Gen.Kernel.Points
import proofs.«176881_j11115375362476_1_alg».proof.Proof.Gen.Kernel.Frame
import proofs.«176881_j11115375362476_1_alg».proof.Proof.Gen.KernelIdeal
import proofs.«176881_j11115375362476_1_alg».proof.Proof.Gen.KernelIdeal.Skeleton
import proofs.«176881_j11115375362476_1_alg».proof.Proof.Gen.KernelIdeal.Launch
import proofs.«176881_j11115375362476_1_alg».proof.Proof.Gen.KernelIdeal.Points
import proofs.«176881_j11115375362476_1_alg».proof.Proof.Gen.KernelIdeal.Frame
import proofs.«176881_j11115375362476_1_alg».proof.Proof.Gen.ReferenceIdeal
import proofs.«176881_j11115375362476_1_alg».proof.Proof.Gen.Pre_finite_inputs
import proofs.«176881_j11115375362476_1_alg».proof.Proof.Gen.KernelIdeal.Value
import proofs.«176881_j11115375362476_1_alg».proof.Proof.Gen.ReferenceIdeal.Run
import proofs.«176881_j11115375362476_1_alg».proof.Proof.Gen.ReferenceIdeal.Read
import proofs.«176881_j11115375362476_1_alg».proof.Proof.RefIsSpec
import proofs.«176881_j11115375362476_1_alg».proof.Proof.KernArray
import Idealize.ShloMosaic.Adequacy
import Idealize.ShloMosaic.Init

noncomputable section

namespace Cert.Proof

open Idealize.ShloMosaic Idealize.SL.Sem

/-- The word-level kernel runs and leaves its arguments unchanged: the generated frame run. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference runs and leaves its arguments unchanged: its generated run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories that agree on the seven arguments, the kernel ends with the specification's new hidden and cell
    state of its arguments, and the reference with the same two functions of its own: equal results. -/
theorem algebraic : Cert.algebraic_KernelIdeal_ReferenceIdeal := by
  intro m ρ m' ρ' _ hagree
  refine ⟨fun c => Cert.Lstm.Kern.hidArr m c, fun c => Cert.Lstm.Kern.cellArr m c, Cert.Lstm.Kern.run m ρ, ?_⟩
  refine (θ_run Cert.ReferenceIdeal.defs _ _).mono
    (fun _ h c => ⟨(h c).1.trans ?_, (h c).2.1.trans ?_, (h c).2.2⟩)
    (Cert.ReferenceIdeal.Value.run (F := Ideal) m' ρ')
  · obtain ⟨a0, a1, a2, a3, a4, a5, a6⟩ := hagree c
    rw [Cert.ReferenceIdeal.Read.val_main_v36_eq, Cert.Lstm.Ref.hid_ref_eq, a0, a1, a2, a3, a4, a5, a6]
  · obtain ⟨a0, a1, a2, a3, a4, a5, a6⟩ := hagree c
    rw [Cert.ReferenceIdeal.Read.val_main_v34_eq, Cert.Lstm.Ref.cell_ref_eq, a0, a1, a2, a3, a4, a5, a6]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
